-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel

variable [Facts]

def fn {F : FTy → Type} [FloatOps F] (main_arg0 : FVec F S16x2048x2048 .f32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  main_v3
-- ==== Kernel.lean ====
abbrev S16x2048x2048 : Shape := ⟨3, ![16, 2048, 2048]⟩
abbrev S16x2048 : Shape := ⟨2, ![16, 2048]⟩
abbrev S16x128x2048 : Shape := ⟨3, ![16, 128, 2048]⟩
abbrev S16x128 : Shape := ⟨2, ![16, 128]⟩
abbrev S16x64x2048 : Shape := ⟨3, ![16, 64, 2048]⟩
abbrev S16x64 : Shape := ⟨2, ![16, 64]⟩
abbrev S16x64x1 : Shape := ⟨3, ![16, 64, 1]⟩
abbrev S16x1x2048 : Shape := ⟨3, ![16, 1, 2048]⟩

abbrev nBuf : Space → Nat
  | .hbm => 3
  | .vmem => 10
  | .smem => 0
  | _ => 0

abbrev bufTy : (tb : Table) → Fin (tcTables nBuf tb) → BufTy
  | .hbm, ⟨0, _⟩ => ⟨S16x2048x2048, .f32⟩
  | .hbm, ⟨1, _⟩ => ⟨S16x2048, .f32⟩
  | .hbm, ⟨2, _⟩ => ⟨S16x2048x2048, .f32⟩
  | .local _ .vmem, ⟨0, _⟩ => ⟨S16x128x2048, .f32⟩
  | .local _ .vmem, ⟨1, _⟩ => ⟨S16x128x2048, .f32⟩
  | .local _ .vmem, ⟨2, _⟩ => ⟨S16x128, .f32⟩
  | .local _ .vmem, ⟨3, _⟩ => ⟨S16x128, .f32⟩
  | .local _ .vmem, ⟨4, _⟩ => ⟨S16x64x2048, .f32⟩
  | .local _ .vmem, ⟨5, _⟩ => ⟨S16x64x2048, .f32⟩
  | .local _ .vmem, ⟨6, _⟩ => ⟨S16x2048, .f32⟩
  | .local _ .vmem, ⟨7, _⟩ => ⟨S16x2048, .f32⟩
  | .local _ .vmem, ⟨8, _⟩ => ⟨S16x64x2048, .f32⟩
  | .local _ .vmem, ⟨9, _⟩ => ⟨S16x64x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c64_i32 : BitVec 32 := 64#32
  let v0 : BitVec 32 := Scalar.muli arg0 c64_i32
  v0
def k1_off1 (i : grid1.Coords) : Fin 2 → Nat :=
  let c0 : Index := 0#32
  let arg0 : BitVec 32 := BitVec.ofNat 32 (i 0).val
  let c64_i32 : BitVec 32 := 64#32
  let v0 : BitVec 32 := Scalar.muli arg0 c64_i32
  let v1 : BitVec 32 := v0
  let v2 : Index := Scalar.indexCast v1
  ![0, v2.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S16x64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S16x128x2048_S16x128x2048_0_0_0 : ∀ a, (![0, 0, 0] : Fin 3 → Nat) a + S16x128x2048.size a ≤ S16x128x2048.size a
  h_S16x128x2048 : 0 < S16x128x2048.numel
  reduces_S16x128x2048_S16x128 : S16x128x2048.Reduces [2] S16x128
  inb_S16x128_S16x128_0_0 : ∀ a, (![0, 0] : Fin 2 → Nat) a + S16x128.size a ≤ S16x128.size a
  h_S16x128 : 0 < S16x128.numel
  h_S16x64 : 0 < S16x64.numel
  shapeCasts_S16x64_S16x64 : S16x64.ShapeCasts S16x64
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S16x64x2048_S16x64x2048_0_0_0 : ∀ a, (![0, 0, 0] : Fin 3 → Nat) a + S16x64x2048.size a ≤ S16x64x2048.size a
  h_S16x64x2048 : 0 < S16x64x2048.numel
  shapeCasts_S16x64_S16x64x1 : S16x64.ShapeCasts S16x64x1
  broadcasts_S16x64x1_S16x64x2048 : S16x64x1.Broadcasts S16x64x2048
  shapeCasts_S16x2048_S16x1x2048 : S16x2048.ShapeCasts S16x1x2048
  broadcasts_S16x1x2048_S16x64x2048 : S16x1x2048.Broadcasts S16x64x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x2048.size a ≤ S16x2048x2048.size a
  hwx0_0 : ∀ i : grid0.Coords, EltTy.bits .f32 = 32 ∨ (Rect.block (s := S16x2048x2048) S16x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x2048.size a
  hwx0_1 : ∀ i : grid0.Coords, EltTy.bits .f32 = 32 ∨ (Rect.block (s := S16x2048) S16x128.size (cc0_transform_1 i) (hinb0_1 i)).WholeWords (EltTy.packing .f32)
  hrank1 : 0 < grid1.rank
  k1_mult1_dvd : ∀ i : grid1.Coords, 64 ∣ (k1_mult1 i).toNat
  k1_off1_inb : ∀ i : grid1.Coords, ∀ a, (k1_off1 i) a + S16x64.size a ≤ S16x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x64x2048.size a ≤ S16x2048x2048.size a
  hwx1_0 : ∀ i : grid1.Coords, EltTy.bits .f32 = 32 ∨ (Rect.block (s := S16x2048x2048) S16x64x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2048.size a ≤ S16x2048.size a
  hwx1_1 : ∀ i : grid1.Coords, EltTy.bits .f32 = 32 ∨ (Rect.block (s := S16x2048) S16x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x2048.size a ≤ S16x2048.size a
  hwx1_2 : ∀ i : grid1.Coords, EltTy.bits .f32 = 32 ∨ (Rect.block (s := S16x2048) S16x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x64x2048.size a ≤ S16x2048x2048.size a
  hwx1_3 : ∀ i : grid1.Coords, EltTy.bits .f32 = 32 ∨ (Rect.block (s := S16x2048x2048) S16x64x2048.size (cc1_transform_3 i) (hinb1_3 i)).WholeWords (EltTy.packing .f32)

variable [Facts₀]

abbrev win0_0 : Pipeline.Window sig grid0 :=
  Pipeline.Window.ofSpec (Memref.whole main_arg0) S16x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S16x64x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S16x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S16x64x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S_, .f32⟩
  | .hbm, ⟨2, _⟩ => ⟨S16x2048, .f32⟩
  | .hbm, ⟨3, _⟩ => ⟨S16x2048, .f32⟩
  | .hbm, ⟨4, _⟩ => ⟨S16x2048x1, .f32⟩
  | .hbm, ⟨5, _⟩ => ⟨S16x2048x2048, .f32⟩
  | .hbm, ⟨6, _⟩ => ⟨S16x2048x2048, .f32⟩
  | .hbm, ⟨7, _⟩ => ⟨S16x1x2048, .f32⟩
  | .hbm, ⟨8, _⟩ => ⟨S16x2048x2048, .f32⟩
  | .hbm, ⟨9, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)

variable [Facts₀]

class Facts : Prop extends Facts₀ where

variable [Facts]
-- ==== Proof.DatsB.lean ====
/-
  The proof data of the program's two pipelined regions, each stated at a PARAMETER: the contents `V` of the core's
  buffers when the region is entered.

  Region 0 walks the 2048 rows of every matrix in 16 blocks of 128 rows: the block [16, 128, 2048] of the input is
  fetched, the body sums each row and takes the inverse square root, and the block [16, 128] of the vector of row
  factors is written back.  Region 1 walks the rows in 32 blocks of 64: the block [16, 64, 2048] of the input is fetched
  at every point, the WHOLE vector of row factors is fetched twice (once as the source of the row factors, once as the
  source of the column factors; both windows sit on the same array, fetched at the first point only), and the block
  [16, 64, 2048] of the result is written back.  After the body every input's staging buffer holds the block it was
  handed, and the output's holds the body's one store.
-/
import proofs.«104962_j35759897706670_1_alg».proof.Proof.Gen.Kernel.Launch
import proofs.«104962_j35759897706670_1_alg».proof.Proof.Gen.Kernel.Skeleton
import proofs.«104962_j35759897706670_1_alg».proof.Proof.Gen.Kernel.Points
import Idealize.ShloMosaic.Lib.Pipeline.FrameBody
import Idealize.ShloMosaic.Lib.Pipeline.Frame

set_option maxRecDepth 16384

noncomputable section

namespace Cert.Kernel.Regs

open Idealize.ShloMosaic Idealize.ShloMosaic.TcCoe
open Idealize.SL Idealize.SL.RA Idealize.SL.BI
open scoped Idealize.SL.BI
open Idealize.SL.Sem
open Idealize.ShloMosaic.Pipeline (Dat Cfg Window)
open Cert.Kernel Cert.Kernel.Gen

variable {F : FTy → Type} [FloatOps F]

variable (V : (c : Dev nD) → (b : Ref sig .tc) → Buf (Elt F) ((c : Thread nD τ).loc b))

/-! ## Region 0: row sums and their inverse square roots -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of the input's staging buffer, as the body loads it. -/
abbrev rIn0 : Rect S16x128x2048 := Rect.unit (s := S16x128x2048) ![0, 0, 0] S16x128x2048.size inb_S16x128x2048_S16x128x2048_0_0_0
/-- The whole of the output's staging buffer, as the body stores it. -/
abbrev rOut0 : Rect S16x128 := Rect.unit (s := S16x128) ![0, 0] S16x128.size inb_S16x128_S16x128_0_0

/-- What the body leaves in the output's staging buffer: its one store, the row factors of the loaded block. -/
def out0 (x0 : Vec F S16x128x2048 .f32) : Vec F S16x128 .f32 :=
  View.canon [⟨rOut0, k0_pay1 (View.ld x0 rIn0)⟩]

/-- The one store covers the buffer. -/
theorem cover0 (p0 : Vec F S16x128 .f32) (y : S16x128.Idx) :
    ∃ pc ∈ ([⟨rOut0, p0⟩] : List (View.Piece (Elt F) S16x128 .f32)), y ∈ pc.1.set :=
  View.cover_of_tiled [⟨rOut0, p0⟩] S16x128.size (by rfl) y

/-- Region 0's proof data on core `c`: the arrays as found; after the body the input's buffer at its block and the
    output's at the row factors of that block; the invariant is the scoped rest and the generator register; nothing is
    owed; every array is held whole. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => out0 (blk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = out0 (blk0 V c 0 t) := by dsimp only [dat0]

/-! ## Region 1: every entry scaled by its row's factor and its column's -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 64 row factors of the point's rows, inside the whole vector's staging buffer. -/
abbrev rRow1 (i : grid1.Coords) : Rect S16x2048 := Rect.unit (s := S16x2048) (k1_off1 i) S16x64.size (k1_off1_inb i)
/-- The whole vector of column factors. -/
abbrev rCol1 : Rect S16x2048 := Rect.unit (s := S16x2048) ![0, 0] S16x2048.size inb_S16x2048_S16x2048_0_0
/-- The whole block of the input, and of the result. -/
abbrev rBlk1 : Rect S16x64x2048 := Rect.unit (s := S16x64x2048) ![0, 0, 0] S16x64x2048.size inb_S16x64x2048_S16x64x2048_0_0_0

/-- What the body leaves in the output's staging buffer at grid coordinates `i`: its one store, the block scaled by
    the rows' factors and the columns'. -/
def out1 (i : grid1.Coords) (x0 : Vec F S16x64x2048 .f32) (x1 x2 : Vec F S16x2048 .f32) : Vec F S16x64x2048 .f32 :=
  View.canon [⟨rBlk1, k1_pay1 (View.ld x1 (rRow1 i)) (View.ld x2 rCol1) (View.ld x0 rBlk1)⟩]

/-- The one store covers the buffer. -/
theorem cover1 (p0 : Vec F S16x64x2048 .f32) (y : S16x64x2048.Idx) :
    ∃ pc ∈ ([⟨rBlk1, p0⟩] : List (View.Piece (Elt F) S16x64x2048 .f32)), y ∈ pc.1.set :=
  View.cover_of_tiled [⟨rBlk1, p0⟩] S16x64x2048.size (by rfl) y

/-- Region 1's proof data on core `c`.  Windows 1 and 2 read ONE array, the vector of row factors: each holds half of
    it (the left and the right half of the full share); the input and the result are held whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 (grid1.coords t) (blk1 V c 0 t) (blk1 V c 1 t) (blk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = out1 (grid1.coords t) (blk1 V c 0 t) (blk1 V c 1 t) (blk1 V c 2 t) := by dsimp only [dat1]

end Cert.Kernel.Regs

end
-- ==== Proof.Body0B.lean ====
/-
  Region 0's body: from the input's staging buffer holding a block [16, 128, 2048] of the matrices, the body sums each of
  the 16 × 128 rows, takes the inverse square root, and leaves the 16 × 128 factors in the output's staging buffer; the
  input's buffer is left as found.  Stated for the pipeline: at every grid point the input's buffer holds the point's
  block (it is fetched at every point), so the body obligation of the region's proof data holds.
-/
import proofs.«104962_j35759897706670_1_alg».proof.Proof.DatsB
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input's current staging buffer holds the point's block at every point: the window is fetched there, whole. -/
theorem before0_0 (c : Dev nD) (t : Fin cfg0.N) (d) : (dat0 V c).before 0 t d = blk0 V c 0 t :=
  ((dat0 V c).before_in_eq_fetched 0 rfl (fun _ => rfl) (fun _ _ _ => rfl)
      (fun t => by rw [after0_0]; unfold Dat.blockOf blk0; rw [A_eq0]; try rfl) t d).trans
    (by unfold Dat.fetched Dat.blockOf blk0; rw [A_eq0]; try rfl)

set_option maxHeartbeats 1000000 in
/-- The body on whole staging memrefs: the input's at contents `x0`, the output's at anything; it ends with the input's
    as it was and the output's at the row factors of `x0`. -/
theorem sound_kernel0 (c : Dev nD) (E : Set ℕ) (i : grid0.Coords) (arg1 : Memref sig .tc .vmem S16x128x2048 .f32) (harg1 : arg1.IsWhole)
    (arg2 : Memref sig .tc .vmem S16x128 .f32) (harg2 : arg2.IsWhole)
    (x0 : Vec F S16x128x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Regs

end
-- ==== Proof.Body1B.lean ====
/-
  Region 1's body: from the input's staging buffer holding a block [16, 64, 2048] of the matrices and two staging buffers
  each holding the whole vector [16, 2048] of row factors, the body reads the 64 factors of the block's rows out of the
  first, all 2048 column factors out of the second, and leaves in the output's staging buffer the block with every entry
  multiplied by its row's factor and then by its column's; the three inputs' buffers are left as found.  Stated for the
  pipeline: at every grid point each input's buffer holds the point's block — the matrices' block is fetched at every
  point, the two whole-vector windows at the first point only and never move —, so the body obligation holds.
-/
import proofs.«104962_j35759897706670_1_alg».proof.Proof.DatsB
import Idealize.ShloMosaic.Lib.Tactic

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The matrices' window holds the point's block at every point (fetched there). -/
theorem before1_0 (c : Dev nD) (t : Fin cfg1.N) (d) : (dat1 V c).before 0 t d = blk1 V c 0 t :=
  ((dat1 V c).before_in_eq_fetched 0 rfl (fun _ => rfl) (fun _ _ _ => rfl)
      (fun t => by rw [after1_0]; unfold Dat.blockOf blk1; rw [A_eq1]; try rfl) t d).trans
    (by unfold Dat.fetched Dat.blockOf blk1; rw [A_eq1]; try rfl)

/-- The row factors' window holds the whole vector at every point: fetched at the first, its block index never moves. -/
theorem before1_1 (c : Dev nD) (t : Fin cfg1.N) (d) : (dat1 V c).before 1 t d = blk1 V c 1 t :=
  ((dat1 V c).before_in_eq_fetched 1 rfl (fun _ => rfl) (fun _ _ _ => rfl)
      (fun t => by rw [after1_1]; unfold Dat.blockOf blk1; rw [A_eq1]; try rfl) t d).trans
    (by unfold Dat.fetched Dat.blockOf blk1; rw [A_eq1]; try rfl)

/-- The column factors' window likewise. -/
theorem before1_2 (c : Dev nD) (t : Fin cfg1.N) (d) : (dat1 V c).before 2 t d = blk1 V c 2 t :=
  ((dat1 V c).before_in_eq_fetched 2 rfl (fun _ => rfl) (fun _ _ _ => rfl)
      (fun t => by rw [after1_2]; unfold Dat.blockOf blk1; rw [A_eq1]; try rfl) t d).trans
    (by unfold Dat.fetched Dat.blockOf blk1; rw [A_eq1]; try rfl)

set_option maxHeartbeats 1000000 in
/-- The body on whole staging memrefs: the inputs' at contents `x0`, `x1`, `x2`, the output's at anything; it ends with
    the inputs' as they were and the output's at the scaled block. -/
theorem sound_kernel1 (c : Dev nD) (E : Set ℕ) (i : grid1.Coords) (arg1 : Memref sig .tc .vmem S16x64x2048 .f32) (harg1 : arg1.IsWhole)
    (arg2 : Memref sig .tc .vmem S16x2048 .f32) (harg2 : arg2.IsWhole) (arg3 : Memref sig .tc .vmem S16x2048 .f32) (harg3 : arg3.IsWhole)
    (arg4 : Memref sig .tc .vmem S16x64x2048 .f32) (harg4 : arg4.IsWhole)
    (x0 : Vec F S16x64x2048 .f32) (x1 x2 : Vec F S16x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 i x0 x1 x2)) -∗ K ⟨⟩))
      ⊢ wp frame (wpE (defs₀ (F := F)) Variants.none c none) E (cc1__scale_kernel i arg1 harg1 arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Regs

end
-- ==== Proof.Share1B.lean ====
/-
  Region 1 reads ONE array, the vector of row factors, through two of its windows.  The core holds that array whole; the
  pipeline wants each window's array at the window's own share.  Here the core's three arrays are dealt to the region's
  four windows — the vector's full share split into its two halves, one per window — and, at the region's end, gathered
  back: the two halves rejoin (both windows only read, so both still hold what they were given), the input comes back as
  found, and the result array holds what the region's write-backs left.
-/
import proofs.«104962_j35759897706670_1_alg».proof.Proof.DatsB
import Idealize.ShloMosaic.Lib.Pipeline.Kit

set_option maxRecDepth 16384

noncomputable section

namespace Cert.Kernel.Regs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Kernel Cert.Kernel.Gen

variable {F : FTy → Type} [FloatOps F]

local notation "𝕄" => MT nD τ sig Unit (Elt F) ℕ (UR sig nD τ) ℕ

/-- The core's unscoped buffers are three arrays: the input, the vector of row factors, the result. -/
theorem bufs_chain (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0)
          ∗ (((c : Thread nD τ).loc main_v0) ↦{fullShare} W main_v0)
          ∗ (((c : Thread nD τ).loc main_v1) ↦{fullShare} W main_v1)) := by
  unfold unscopedBufs
  exact bigSep_eq_bigSepL_of_eq [main_arg0, main_v0, main_v1] (by decide) (by decide) _

variable (V : (c : Dev nD) → (b : Ref sig .tc) → Buf (Elt F) ((c : Thread nD τ).loc b))

/-- Region 1's arrays, window by window: the input whole, the vector's two halves, the result whole. -/
theorem arrays1_chain (c : Dev nD) (G : (w : Fin cfg1.W) → Buf (Elt F) ((cfg1.win w).arr.view.loc (c : Thread nD τ))) :
    ((dat1 V c).arrays G : sProp 𝕄)
      = iprop((((c : Thread nD τ).loc main_arg0) ↦{fullShare} G 0)
          ∗ (((c : Thread nD τ).loc main_v0) ↦{fullShare.left} G 1)
          ∗ (((c : Thread nD τ).loc main_v0) ↦{fullShare.right} G 2)
          ∗ (((c : Thread nD τ).loc main_v1) ↦{fullShare} G 3)) := by
  unfold Dat.arrays
  rw [bigSep_W1, (arr_whole1 0).set_eq_univ, (arr_whole1 1).set_eq_univ, (arr_whole1 3).set_eq_univ]
  rfl

/-- ENTRY: the three arrays at the contents `V` are region 1's arrays at its entry contents. -/
theorem arrays1_of_bufs (c : Dev nD) :
    (unscopedBufs (Ix := Unit) (Name := ℕ) (U := UR sig nD τ) (Lvl := ℕ) c (V c) : sProp 𝕄)
      ⊢ (dat1 V c).arrays ((dat1 V c).arrAt · 0) := by
  rw [bufs_chain, arrays1_chain]
  iintro ⟨Hx, Hr, Hy⟩
  ihave Hr2 := (pointsTo_share (PosShare.mem_left_op_right fullShare)).1 $$ Hr
  icases Hr2 with ⟨Hl, Hrr⟩
  isplitl [Hx]; · iexact Hx
  isplitl [Hl]; · iexact Hl
  isplitl [Hrr]; · iexact Hrr
  iexact Hy

/-- EXIT: region 1's arrays at its exit contents are the three arrays at any contents `W'` that has the input and the
    vector as the region found them and the result as the region's write-backs left it. -/
theorem bufs_of_arrays1 (c : Dev nD) (W' : (b : Ref sig .tc) → Buf (Elt F) ((c : Thread nD τ).loc b))
    (h0 : W' main_arg0 = V c main_arg0) (h1 : W' main_v0 = V c main_v0) (h3 : W' main_v1 = (dat1 V c).arrAt 3 cfg1.N) :
    ((dat1 V c).arrays ((dat1 V c).arrAt · cfg1.N) : sProp 𝕄)
      ⊢ unscopedBufs (Ix := Unit) (Name := ℕ) (U := UR sig nD τ) (Lvl := ℕ) c W' := by
  rw [bufs_chain, arrays1_chain, h0, h1, h3,
    show (dat1 V c).arrAt 0 cfg1.N = V c main_arg0 from ((dat1 V c).arrAt_in 0 rfl _).trans (A_eq1 V c 0),
    show (dat1 V c).arrAt 1 cfg1.N = V c main_v0 from ((dat1 V c).arrAt_in 1 rfl _).trans (A_eq1 V c 1),
    show (dat1 V c).arrAt 2 cfg1.N = V c main_v0 from ((dat1 V c).arrAt_in 2 rfl _).trans (A_eq1 V c 2)]
  iintro ⟨Hx, Hl, Hrr, Hy⟩
  isplitl [Hx]; · iexact Hx
  isplitl [Hl Hrr]
  · iapply (pointsTo_share (PosShare.mem_left_op_right fullShare)).2
    isplitl [Hl]; · iexact Hl
    iexact Hrr
  iexact Hy

end Cert.Kernel.Regs

end
-- ==== Proof.RunB.lean ====
/-
  The program's run: @main is region 0 then region 1, with no host operation between them.  The core's three arrays
  start at the launch contents; region 0 leaves the vector of row factors at what its write-backs fold to and nothing
  else changed; region 1, entered from there, leaves the result array at what ITS write-backs fold to and nothing else
  changed.  Every weakly fair execution terminates, and the final memory holds the result array at that last fold and
  the argument array as launched.
-/
import proofs.«104962_j35759897706670_1_alg».proof.Proof.Body0B
import proofs.«104962_j35759897706670_1_alg».proof.Proof.Body1B
import proofs.«104962_j35759897706670_1_alg».proof.Proof.Share1B
import proofs.«104962_j35759897706670_1_alg».proof.Proof.Gen.Kernel.Regions
import Idealize.ShloMosaic.Lib.Pipeline.RegionsLoop

set_option maxRecDepth 16384

noncomputable section

namespace Cert.Kernel.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at the three boundaries -/

/-- At launch. -/
def U0 (c : Dev nD) (b : Ref sig .tc) : Buf (Elt F) ((c : Thread nD τ).loc b) := m ((c : Thread nD τ).loc b)
/-- After region 0: the vector of row factors at what region 0's write-backs fold to. -/
def U1 (c : Dev nD) : (b : Ref sig .tc) → Buf (Elt F) ((c : Thread nD τ).loc b) :=
  Function.update (U0 m c) main_v0 ((dat0 (U0 m) c).arrAt 1 cfg0.N)
/-- After region 1: the result array at what region 1's write-backs fold to. -/
def U2 (c : Dev nD) : (b : Ref sig .tc) → Buf (Elt F) ((c : Thread nD τ).loc b) :=
  Function.update (U1 m c) main_v1 ((dat1 (U1 m) c).arrAt 3 cfg1.N)

theorem U1_v0 (c : Dev nD) : U1 m c main_v0 = (dat0 (U0 m) c).arrAt 1 cfg0.N := by unfold U1; exact Function.update_self ..
theorem U1_of_ne (c : Dev nD) (b : Ref sig .tc) (h : b ≠ main_v0) : U1 m c b = U0 m c b := by unfold U1; exact Function.update_of_ne h ..
theorem U2_v1 (c : Dev nD) : U2 m c main_v1 = (dat1 (U1 m) c).arrAt 3 cfg1.N := by unfold U2; exact Function.update_self ..
theorem U2_of_ne (c : Dev nD) (b : Ref sig .tc) (h : b ≠ main_v1) : U2 m c b = U1 m c b := by unfold U2; exact Function.update_of_ne h ..

/-- The argument array is never written: it ends as launched. -/
theorem U2_arg0 (c : Dev nD) : U2 m c main_arg0 = m ((c : Thread nD τ).loc main_arg0) :=
  (U2_of_ne m c main_arg0 (by decide)).trans (U1_of_ne m c main_arg0 (by decide))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the arrays through both regions: the generator register at some state, and nothing owed. -/
abbrev R (c : Dev nD) : sProp 𝕄 := iprop((∃ r, prngReg c r) ∗ ∃ W, owes (c : Thread nD τ) (0 : CellTallies nD τ sig Unit) W)

/-- The arrays at given contents. -/
abbrev bufs (c : Dev nD) (W : (b : Ref sig .tc) → Buf (Elt F) ((c : Thread nD τ).loc b)) : sProp 𝕄 :=
  unscopedBufs (Ix := Unit) (Name := ℕ) (U := UR sig nD τ) (Lvl := ℕ) c W

/-- The last thread state without what is owed. -/
abbrev Tₙ (c : Dev nD) : sProp 𝕄 := iprop(bufs c (U2 m c) ∗ ∃ r, prngReg c r)

/-! ## The regions as segments -/

set_option backward.isDefEq.respectTransparency.types false in
/-- REGION 0: entered with the arrays at the launch contents, left with the vector of row factors rewritten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(bufs c (U0 m c) ∗ R c)
  post c := iprop(bufs c (U1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N)
      (fun w => match w with
        | ⟨0, _⟩ => (((dat0 (U0 m) c).arrAt_in 0 rfl _).trans (A_eq0 (U0 m) c 0)).trans (U1_of_ne m c main_arg0 (by decide)).symm
        | ⟨1, _⟩ => (U1_v0 m c).symm)
      (fun b hb => U1_of_ne m c b fun e => hb (Finset.mem_image.mpr ⟨1, Finset.mem_univ _, e.symm⟩))
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered with the arrays as region 0 left them — the vector of row factors dealt to its two windows, half
    each —, left with the result array rewritten. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(bufs c (U1 m c) ∗ R c)
  post c := iprop(Tₙ m c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    have hsplit := arrays1_of_bufs (U1 m) c
    iintro ⟨⟨Hub, Hp, HO⟩, -, -⟩
    ihave Ha := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := bufs_of_arrays1 (U1 m) c (U2 m c) (U2_of_ne m c main_arg0 (by decide)) (U2_of_ne m c main_v0 (by decide)) (U2_v1 m c)
    iintro ⟨Ha, HO, HY, -⟩
    imodintro
    isplitl [Ha HY]
    · isplitl [Ha]
      · iapply hjoin; iexact Ha
      iexact HY
    unfold Pipeline.Dat.owesAt Pipeline.owesWithin
    icases HO with ⟨%W, -, HO⟩; iexists W; iexact HO

/-! ## @main as segments, and the launch -/

/-- @main's two segments. -/
abbrev segs : List (Pipeline.Seg (pcfgs (F := F)) adm (pdats m) () defs₀ 𝒱₀ L lv) :=
  [ .region (reg0 m), .region (reg1 m) ]

/-- @main IS the run of the segments. -/
theorem main_run (c : Dev nD) : main (F := F) c = Pipeline.Seg.run (segs m) := (main_chain c).trans (by chain_rfl)

set_option backward.isDefEq.respectTransparency.types false in
/-- THE RUN, at any float instance: from any memory with zero counters every weakly fair execution of @main terminates,
    nothing faulting, and the final memory has the result array at the fold of region 1's write-backs over what
    region 0 left, and the argument array as launched. -/
theorem run : θ_run defs (onTc (τ := τ) (main (F := F))) ⟨m, fun _ => 0, ρ⟩ (fun r => ∀ c : Dev nD,
      r.2.mem ((c.tc : Thread nD τ).loc main_v1) = U2 m c main_v1
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(bufs c (U0 m c) ∗ R c)) (Tₙ := Tₙ m)
    (hch := ⟨fun _ => .rfl, fun _ => .rfl, fun _ => .rfl⟩)
    (hinit := by
      refine Pipeline.initEach L lv fun c => ?_
      iintro ⟨⟨Hh, -, HO, -, Hp, -⟩, -⟩
      imodintro
      isplitl [Hh]; · iexact Hh
      isplitl [Hp]; · iexists _; iexact Hp
      iexists ∅; iexact HO)
    (QY := fun c s => ∀ b ∈ (Finset.univ.filter fun b : Ref sig .tc => ¬ b.isScoped), s.mem ((c : Thread nD τ).loc b) = U2 m c b)
    (hfin := fun c s' => by
      have hread := pointsTo_read_all (Ix := Unit) (Name := ℕ) (U := UR sig nD τ) (Lvl := ℕ) (Finset.univ.filter fun b : Ref sig .tc => ¬ b.isScoped) (fun b => (c : Thread nD τ).loc b) (U2 m c) s'
      have hb : (bufs c (U2 m c) : sProp 𝕄)
          ⊢ bigSep (Finset.univ.filter fun b : Ref sig .tc => ¬ b.isScoped) (fun b => (((c : Thread nD τ).loc b) ↦{fullShare} U2 m c b : sProp 𝕄)) :=
        Entails.of_eq rfl
      iintro ⟨⟨Hh, -⟩, HSI⟩
      ihave Hh' := hb $$ Hh
      imodintro
      iapply hread
      isplitl [Hh']
      · iexact Hh'
      iexact HSI)
    (hQ := fun s h c =>
      ⟨(h c main_v1 (by decide)), (h c main_arg0 (by decide)).trans (U2_arg0 m c)⟩)

end Cert.Kernel.Regs

end
-- ==== Proof.Dats.lean ====
/-
  The proof data of the program's two pipelined regions, each stated at a PARAMETER: the contents `V` of the core's
  buffers when the region is entered.

  Region 0 walks the 2048 rows of every matrix in 16 blocks of 128 rows: the block [16, 128, 2048] of the input is
  fetched, the body sums each row and takes the inverse square root, and the block [16, 128] of the vector of row
  factors is written back.  Region 1 walks the rows in 32 blocks of 64: the block [16, 64, 2048] of the input is fetched
  at every point, the WHOLE vector of row factors is fetched twice (once as the source of the row factors, once as the
  source of the column factors; both windows sit on the same array, fetched at the first point only), and the block
  [16, 64, 2048] of the result is written back.  After the body every input's staging buffer holds the block it was
  handed, and the output's holds the body's one store.
-/
import proofs.«104962_j35759897706670_1_alg».proof.Proof.Gen.KernelIdeal.Launch
import proofs.«104962_j35759897706670_1_alg».proof.Proof.Gen.KernelIdeal.Skeleton
import proofs.«104962_j35759897706670_1_alg».proof.Proof.Gen.KernelIdeal.Points
import Idealize.ShloMosaic.Lib.Pipeline.FrameBody
import Idealize.ShloMosaic.Lib.Pipeline.Frame

set_option maxRecDepth 16384

noncomputable section

namespace Cert.KernelIdeal.Regs

open Idealize.ShloMosaic Idealize.ShloMosaic.TcCoe
open Idealize.SL Idealize.SL.RA Idealize.SL.BI
open scoped Idealize.SL.BI
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-! ## Region 0: row sums and their inverse square roots -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of the input's staging buffer, as the body loads it. -/
abbrev rIn0 : Rect S16x128x2048 := Rect.unit (s := S16x128x2048) ![0, 0, 0] S16x128x2048.size inb_S16x128x2048_S16x128x2048_0_0_0
/-- The whole of the output's staging buffer, as the body stores it. -/
abbrev rOut0 : Rect S16x128 := Rect.unit (s := S16x128) ![0, 0] S16x128.size inb_S16x128_S16x128_0_0

/-- What the body leaves in the output's staging buffer: its one store, the row factors of the loaded block. -/
def out0 (x0 : Vec F S16x128x2048 .f32) : Vec F S16x128 .f32 :=
  View.canon [⟨rOut0, k0_pay1 (View.ld x0 rIn0)⟩]

/-- The one store covers the buffer. -/
theorem cover0 (p0 : Vec F S16x128 .f32) (y : S16x128.Idx) :
    ∃ pc ∈ ([⟨rOut0, p0⟩] : List (View.Piece (Elt F) S16x128 .f32)), y ∈ pc.1.set :=
  View.cover_of_tiled [⟨rOut0, p0⟩] S16x128.size (by rfl) y

/-- Region 0's proof data on core `c`: the arrays as found; after the body the input's buffer at its block and the
    output's at the row factors of that block; the invariant is the scoped rest and the generator register; nothing is
    owed; every array is held whole. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => out0 (blk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = out0 (blk0 V c 0 t) := by dsimp only [dat0]

/-! ## Region 1: every entry scaled by its row's factor and its column's -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 64 row factors of the point's rows, inside the whole vector's staging buffer. -/
abbrev rRow1 (i : grid1.Coords) : Rect S16x2048 := Rect.unit (s := S16x2048) (k1_off1 i) S16x64.size (k1_off1_inb i)
/-- The whole vector of column factors. -/
abbrev rCol1 : Rect S16x2048 := Rect.unit (s := S16x2048) ![0, 0] S16x2048.size inb_S16x2048_S16x2048_0_0
/-- The whole block of the input, and of the result. -/
abbrev rBlk1 : Rect S16x64x2048 := Rect.unit (s := S16x64x2048) ![0, 0, 0] S16x64x2048.size inb_S16x64x2048_S16x64x2048_0_0_0

/-- What the body leaves in the output's staging buffer at grid coordinates `i`: its one store, the block scaled by
    the rows' factors and the columns'. -/
def out1 (i : grid1.Coords) (x0 : Vec F S16x64x2048 .f32) (x1 x2 : Vec F S16x2048 .f32) : Vec F S16x64x2048 .f32 :=
  View.canon [⟨rBlk1, k1_pay1 (View.ld x1 (rRow1 i)) (View.ld x2 rCol1) (View.ld x0 rBlk1)⟩]

/-- The one store covers the buffer. -/
theorem cover1 (p0 : Vec F S16x64x2048 .f32) (y : S16x64x2048.Idx) :
    ∃ pc ∈ ([⟨rBlk1, p0⟩] : List (View.Piece (Elt F) S16x64x2048 .f32)), y ∈ pc.1.set :=
  View.cover_of_tiled [⟨rBlk1, p0⟩] S16x64x2048.size (by rfl) y

/-- Region 1's proof data on core `c`.  Windows 1 and 2 read ONE array, the vector of row factors: each holds half of
    it (the left and the right half of the full share); the input and the result are held whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 (grid1.coords t) (blk1 V c 0 t) (blk1 V c 1 t) (blk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = out1 (grid1.coords t) (blk1 V c 0 t) (blk1 V c 1 t) (blk1 V c 2 t) := by dsimp only [dat1]

end Cert.KernelIdeal.Regs

end
-- ==== Proof.Body0.lean ====
/-
  Region 0's body: from the input's staging buffer holding a block [16, 128, 2048] of the matrices, the body sums each of
  the 16 × 128 rows, takes the inverse square root, and leaves the 16 × 128 factors in the output's staging buffer; the
  input's buffer is left as found.  Stated for the pipeline: at every grid point the input's buffer holds the point's
  block (it is fetched at every point), so the body obligation of the region's proof data holds.
-/
import proofs.«104962_j35759897706670_1_alg».proof.Proof.Dats
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input's current staging buffer holds the point's block at every point: the window is fetched there, whole. -/
theorem before0_0 (c : Dev nD) (t : Fin cfg0.N) (d) : (dat0 V c).before 0 t d = blk0 V c 0 t :=
  ((dat0 V c).before_in_eq_fetched 0 rfl (fun _ => rfl) (fun _ _ _ => rfl)
      (fun t => by rw [after0_0]; unfold Dat.blockOf blk0; rw [A_eq0]; try rfl) t d).trans
    (by unfold Dat.fetched Dat.blockOf blk0; rw [A_eq0]; try rfl)

set_option maxHeartbeats 1000000 in
/-- The body on whole staging memrefs: the input's at contents `x0`, the output's at anything; it ends with the input's
    as it was and the output's at the row factors of `x0`. -/
theorem sound_kernel0 (c : Dev nD) (E : Set ℕ) (i : grid0.Coords) (arg1 : Memref sig .tc .vmem S16x128x2048 .f32) (harg1 : arg1.IsWhole)
    (arg2 : Memref sig .tc .vmem S16x128 .f32) (harg2 : arg2.IsWhole)
    (x0 : Vec F S16x128x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regs

end
-- ==== Proof.Body1.lean ====
/-
  Region 1's body: from the input's staging buffer holding a block [16, 64, 2048] of the matrices and two staging buffers
  each holding the whole vector [16, 2048] of row factors, the body reads the 64 factors of the block's rows out of the
  first, all 2048 column factors out of the second, and leaves in the output's staging buffer the block with every entry
  multiplied by its row's factor and then by its column's; the three inputs' buffers are left as found.  Stated for the
  pipeline: at every grid point each input's buffer holds the point's block — the matrices' block is fetched at every
  point, the two whole-vector windows at the first point only and never move —, so the body obligation holds.
-/
import proofs.«104962_j35759897706670_1_alg».proof.Proof.Dats
import Idealize.ShloMosaic.Lib.Tactic

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The matrices' window holds the point's block at every point (fetched there). -/
theorem before1_0 (c : Dev nD) (t : Fin cfg1.N) (d) : (dat1 V c).before 0 t d = blk1 V c 0 t :=
  ((dat1 V c).before_in_eq_fetched 0 rfl (fun _ => rfl) (fun _ _ _ => rfl)
      (fun t => by rw [after1_0]; unfold Dat.blockOf blk1; rw [A_eq1]; try rfl) t d).trans
    (by unfold Dat.fetched Dat.blockOf blk1; rw [A_eq1]; try rfl)

/-- The row factors' window holds the whole vector at every point: fetched at the first, its block index never moves. -/
theorem before1_1 (c : Dev nD) (t : Fin cfg1.N) (d) : (dat1 V c).before 1 t d = blk1 V c 1 t :=
  ((dat1 V c).before_in_eq_fetched 1 rfl (fun _ => rfl) (fun _ _ _ => rfl)
      (fun t => by rw [after1_1]; unfold Dat.blockOf blk1; rw [A_eq1]; try rfl) t d).trans
    (by unfold Dat.fetched Dat.blockOf blk1; rw [A_eq1]; try rfl)

/-- The column factors' window likewise. -/
theorem before1_2 (c : Dev nD) (t : Fin cfg1.N) (d) : (dat1 V c).before 2 t d = blk1 V c 2 t :=
  ((dat1 V c).before_in_eq_fetched 2 rfl (fun _ => rfl) (fun _ _ _ => rfl)
      (fun t => by rw [after1_2]; unfold Dat.blockOf blk1; rw [A_eq1]; try rfl) t d).trans
    (by unfold Dat.fetched Dat.blockOf blk1; rw [A_eq1]; try rfl)

set_option maxHeartbeats 1000000 in
/-- The body on whole staging memrefs: the inputs' at contents `x0`, `x1`, `x2`, the output's at anything; it ends with
    the inputs' as they were and the output's at the scaled block. -/
theorem sound_kernel1 (c : Dev nD) (E : Set ℕ) (i : grid1.Coords) (arg1 : Memref sig .tc .vmem S16x64x2048 .f32) (harg1 : arg1.IsWhole)
    (arg2 : Memref sig .tc .vmem S16x2048 .f32) (harg2 : arg2.IsWhole) (arg3 : Memref sig .tc .vmem S16x2048 .f32) (harg3 : arg3.IsWhole)
    (arg4 : Memref sig .tc .vmem S16x64x2048 .f32) (harg4 : arg4.IsWhole)
    (x0 : Vec F S16x64x2048 .f32) (x1 x2 : Vec F S16x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 i x0 x1 x2)) -∗ K ⟨⟩))
      ⊢ wp frame (wpE (defs₀ (F := F)) Variants.none c none) E (cc1__scale_kernel i arg1 harg1 arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Regs

end
-- ==== Proof.Share1.lean ====
/-
  Region 1 reads ONE array, the vector of row factors, through two of its windows.  The core holds that array whole; the
  pipeline wants each window's array at the window's own share.  Here the core's three arrays are dealt to the region's
  four windows — the vector's full share split into its two halves, one per window — and, at the region's end, gathered
  back: the two halves rejoin (both windows only read, so both still hold what they were given), the input comes back as
  found, and the result array holds what the region's write-backs left.
-/
import proofs.«104962_j35759897706670_1_alg».proof.Proof.Dats
import Idealize.ShloMosaic.Lib.Pipeline.Kit

set_option maxRecDepth 16384

noncomputable section

namespace Cert.KernelIdeal.Regs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

/-- The core's unscoped buffers are three arrays: the input, the vector of row factors, the result. -/
theorem bufs_chain (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0)
          ∗ (((c : Thread nD τ).loc main_v0) ↦{fullShare} W main_v0)
          ∗ (((c : Thread nD τ).loc main_v1) ↦{fullShare} W main_v1)) := by
  unfold unscopedBufs
  exact bigSep_eq_bigSepL_of_eq [main_arg0, main_v0, main_v1] (by decide) (by decide) _

variable (V : (c : Dev nD) → (b : Ref sig .tc) → Buf (Elt F) ((c : Thread nD τ).loc b))

/-- Region 1's arrays, window by window: the input whole, the vector's two halves, the result whole. -/
theorem arrays1_chain (c : Dev nD) (G : (w : Fin cfg1.W) → Buf (Elt F) ((cfg1.win w).arr.view.loc (c : Thread nD τ))) :
    ((dat1 V c).arrays G : sProp 𝕄)
      = iprop((((c : Thread nD τ).loc main_arg0) ↦{fullShare} G 0)
          ∗ (((c : Thread nD τ).loc main_v0) ↦{fullShare.left} G 1)
          ∗ (((c : Thread nD τ).loc main_v0) ↦{fullShare.right} G 2)
          ∗ (((c : Thread nD τ).loc main_v1) ↦{fullShare} G 3)) := by
  unfold Dat.arrays
  rw [bigSep_W1, (arr_whole1 0).set_eq_univ, (arr_whole1 1).set_eq_univ, (arr_whole1 3).set_eq_univ]
  rfl

/-- ENTRY: the three arrays at the contents `V` are region 1's arrays at its entry contents. -/
theorem arrays1_of_bufs (c : Dev nD) :
    (unscopedBufs (Ix := Unit) (Name := ℕ) (U := UR sig nD τ) (Lvl := ℕ) c (V c) : sProp 𝕄)
      ⊢ (dat1 V c).arrays ((dat1 V c).arrAt · 0) := by
  rw [bufs_chain, arrays1_chain]
  iintro ⟨Hx, Hr, Hy⟩
  ihave Hr2 := (pointsTo_share (PosShare.mem_left_op_right fullShare)).1 $$ Hr
  icases Hr2 with ⟨Hl, Hrr⟩
  isplitl [Hx]; · iexact Hx
  isplitl [Hl]; · iexact Hl
  isplitl [Hrr]; · iexact Hrr
  iexact Hy

/-- EXIT: region 1's arrays at its exit contents are the three arrays at any contents `W'` that has the input and the
    vector as the region found them and the result as the region's write-backs left it. -/
theorem bufs_of_arrays1 (c : Dev nD) (W' : (b : Ref sig .tc) → Buf (Elt F) ((c : Thread nD τ).loc b))
    (h0 : W' main_arg0 = V c main_arg0) (h1 : W' main_v0 = V c main_v0) (h3 : W' main_v1 = (dat1 V c).arrAt 3 cfg1.N) :
    ((dat1 V c).arrays ((dat1 V c).arrAt · cfg1.N) : sProp 𝕄)
      ⊢ unscopedBufs (Ix := Unit) (Name := ℕ) (U := UR sig nD τ) (Lvl := ℕ) c W' := by
  rw [bufs_chain, arrays1_chain, h0, h1, h3,
    show (dat1 V c).arrAt 0 cfg1.N = V c main_arg0 from ((dat1 V c).arrAt_in 0 rfl _).trans (A_eq1 V c 0),
    show (dat1 V c).arrAt 1 cfg1.N = V c main_v0 from ((dat1 V c).arrAt_in 1 rfl _).trans (A_eq1 V c 1),
    show (dat1 V c).arrAt 2 cfg1.N = V c main_v0 from ((dat1 V c).arrAt_in 2 rfl _).trans (A_eq1 V c 2)]
  iintro ⟨Hx, Hl, Hrr, Hy⟩
  isplitl [Hx]; · iexact Hx
  isplitl [Hl Hrr]
  · iapply (pointsTo_share (PosShare.mem_left_op_right fullShare)).2
    isplitl [Hl]; · iexact Hl
    iexact Hrr
  iexact Hy

end Cert.KernelIdeal.Regs

end
-- ==== Proof.Run.lean ====
/-
  The program's run: @main is region 0 then region 1, with no host operation between them.  The core's three arrays
  start at the launch contents; region 0 leaves the vector of row factors at what its write-backs fold to and nothing
  else changed; region 1, entered from there, leaves the result array at what ITS write-backs fold to and nothing else
  changed.  Every weakly fair execution terminates, and the final memory holds the result array at that last fold and
  the argument array as launched.
-/
import proofs.«104962_j35759897706670_1_alg».proof.Proof.Body0
import proofs.«104962_j35759897706670_1_alg».proof.Proof.Body1
import proofs.«104962_j35759897706670_1_alg».proof.Proof.Share1
import proofs.«104962_j35759897706670_1_alg».proof.Proof.Gen.KernelIdeal.Regions
import Idealize.ShloMosaic.Lib.Pipeline.RegionsLoop

set_option maxRecDepth 16384

noncomputable section

namespace Cert.KernelIdeal.Regs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents at the three boundaries -/

/-- At launch. -/
def U0 (c : Dev nD) (b : Ref sig .tc) : Buf (Elt F) ((c : Thread nD τ).loc b) := m ((c : Thread nD τ).loc b)
/-- After region 0: the vector of row factors at what region 0's write-backs fold to. -/
def U1 (c : Dev nD) : (b : Ref sig .tc) → Buf (Elt F) ((c : Thread nD τ).loc b) :=
  Function.update (U0 m c) main_v0 ((dat0 (U0 m) c).arrAt 1 cfg0.N)
/-- After region 1: the result array at what region 1's write-backs fold to. -/
def U2 (c : Dev nD) : (b : Ref sig .tc) → Buf (Elt F) ((c : Thread nD τ).loc b) :=
  Function.update (U1 m c) main_v1 ((dat1 (U1 m) c).arrAt 3 cfg1.N)

theorem U1_v0 (c : Dev nD) : U1 m c main_v0 = (dat0 (U0 m) c).arrAt 1 cfg0.N := by unfold U1; exact Function.update_self ..
theorem U1_of_ne (c : Dev nD) (b : Ref sig .tc) (h : b ≠ main_v0) : U1 m c b = U0 m c b := by unfold U1; exact Function.update_of_ne h ..
theorem U2_v1 (c : Dev nD) : U2 m c main_v1 = (dat1 (U1 m) c).arrAt 3 cfg1.N := by unfold U2; exact Function.update_self ..
theorem U2_of_ne (c : Dev nD) (b : Ref sig .tc) (h : b ≠ main_v1) : U2 m c b = U1 m c b := by unfold U2; exact Function.update_of_ne h ..

/-- The argument array is never written: it ends as launched. -/
theorem U2_arg0 (c : Dev nD) : U2 m c main_arg0 = m ((c : Thread nD τ).loc main_arg0) :=
  (U2_of_ne m c main_arg0 (by decide)).trans (U1_of_ne m c main_arg0 (by decide))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the arrays through both regions: the generator register at some state, and nothing owed. -/
abbrev R (c : Dev nD) : sProp 𝕄 := iprop((∃ r, prngReg c r) ∗ ∃ W, owes (c : Thread nD τ) (0 : CellTallies nD τ sig Unit) W)

/-- The arrays at given contents. -/
abbrev bufs (c : Dev nD) (W : (b : Ref sig .tc) → Buf (Elt F) ((c : Thread nD τ).loc b)) : sProp 𝕄 :=
  unscopedBufs (Ix := Unit) (Name := ℕ) (U := UR sig nD τ) (Lvl := ℕ) c W

/-- The last thread state without what is owed. -/
abbrev Tₙ (c : Dev nD) : sProp 𝕄 := iprop(bufs c (U2 m c) ∗ ∃ r, prngReg c r)

/-! ## The regions as segments -/

set_option backward.isDefEq.respectTransparency.types false in
/-- REGION 0: entered with the arrays at the launch contents, left with the vector of row factors rewritten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(bufs c (U0 m c) ∗ R c)
  post c := iprop(bufs c (U1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N)
      (fun w => match w with
        | ⟨0, _⟩ => (((dat0 (U0 m) c).arrAt_in 0 rfl _).trans (A_eq0 (U0 m) c 0)).trans (U1_of_ne m c main_arg0 (by decide)).symm
        | ⟨1, _⟩ => (U1_v0 m c).symm)
      (fun b hb => U1_of_ne m c b fun e => hb (Finset.mem_image.mpr ⟨1, Finset.mem_univ _, e.symm⟩))
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered with the arrays as region 0 left them — the vector of row factors dealt to its two windows, half
    each —, left with the result array rewritten. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(bufs c (U1 m c) ∗ R c)
  post c := iprop(Tₙ m c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none]
    have hsplit := arrays1_of_bufs (U1 m) c
    iintro ⟨⟨Hub, Hp, HO⟩, -, -⟩
    ihave Ha := hsplit $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := bufs_of_arrays1 (U1 m) c (U2 m c) (U2_of_ne m c main_arg0 (by decide)) (U2_of_ne m c main_v0 (by decide)) (U2_v1 m c)
    iintro ⟨Ha, HO, HY, -⟩
    imodintro
    isplitl [Ha HY]
    · isplitl [Ha]
      · iapply hjoin; iexact Ha
      iexact HY
    unfold Pipeline.Dat.owesAt Pipeline.owesWithin
    icases HO with ⟨%W, -, HO⟩; iexists W; iexact HO

/-! ## @main as segments, and the launch -/

/-- @main's two segments. -/
abbrev segs : List (Pipeline.Seg (pcfgs (F := F)) adm (pdats m) () defs₀ 𝒱₀ L lv) :=
  [ .region (reg0 m), .region (reg1 m) ]

/-- @main IS the run of the segments. -/
theorem main_run (c : Dev nD) : main (F := F) c = Pipeline.Seg.run (segs m) := (main_chain c).trans (by chain_rfl)

set_option backward.isDefEq.respectTransparency.types false in
/-- THE RUN, at any float instance: from any memory with zero counters every weakly fair execution of @main terminates,
    nothing faulting, and the final memory has the result array at the fold of region 1's write-backs over what
    region 0 left, and the argument array as launched. -/
theorem run : θ_run defs (onTc (τ := τ) (main (F := F))) ⟨m, fun _ => 0, ρ⟩ (fun r => ∀ c : Dev nD,
      r.2.mem ((c.tc : Thread nD τ).loc main_v1) = U2 m c main_v1
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(bufs c (U0 m c) ∗ R c)) (Tₙ := Tₙ m)
    (hch := ⟨fun _ => .rfl, fun _ => .rfl, fun _ => .rfl⟩)
    (hinit := by
      refine Pipeline.initEach L lv fun c => ?_
      iintro ⟨⟨Hh, -, HO, -, Hp, -⟩, -⟩
      imodintro
      isplitl [Hh]; · iexact Hh
      isplitl [Hp]; · iexists _; iexact Hp
      iexists ∅; iexact HO)
    (QY := fun c s => ∀ b ∈ (Finset.univ.filter fun b : Ref sig .tc => ¬ b.isScoped), s.mem ((c : Thread nD τ).loc b) = U2 m c b)
    (hfin := fun c s' => by
      have hread := pointsTo_read_all (Ix := Unit) (Name := ℕ) (U := UR sig nD τ) (Lvl := ℕ) (Finset.univ.filter fun b : Ref sig .tc => ¬ b.isScoped) (fun b => (c : Thread nD τ).loc b) (U2 m c) s'
      have hb : (bufs c (U2 m c) : sProp 𝕄)
          ⊢ bigSep (Finset.univ.filter fun b : Ref sig .tc => ¬ b.isScoped) (fun b => (((c : Thread nD τ).loc b) ↦{fullShare} U2 m c b : sProp 𝕄)) :=
        Entails.of_eq rfl
      iintro ⟨⟨Hh, -⟩, HSI⟩
      ihave Hh' := hb $$ Hh
      imodintro
      iapply hread
      isplitl [Hh']
      · iexact Hh'
      iexact HSI)
    (hQ := fun s h c =>
      ⟨(h c main_v1 (by decide)), (h c main_arg0 (by decide)).trans (U2_arg0 m c)⟩)

end Cert.KernelIdeal.Regs

end
-- ==== Proof.Spec.lean ====
/-
  The normalised adjacency as ONE function of the input array, index by index, on the extended reals.
  For a batch of square matrices x[b] the row degree is d[b,i] = Σ_k x[b,i,k]; the result is
  x[b,i,j] · d[b,i]^(-1/2) · d[b,j]^(-1/2), the products taken in that order.
-/
import Idealize.ShloMosaic.PureOps.Ideal
import Idealize.ShloMosaic.Lib.ValueIdx

noncomputable section

namespace Cert.AdjNorm

open Idealize.ShloMosaic Idealize.ShloMosaic.ValueIdx

/-- The batch of adjacency matrices: 16 matrices of 2048 × 2048. -/
abbrev SX : Shape := ⟨3, ![16, 2048, 2048]⟩
/-- One number per row of each matrix. -/
abbrev SR : Shape := ⟨2, ![16, 2048]⟩

/-- The inverse square root of row (b, i)'s degree: the sum of the row's 2048 entries, then x ↦ x^(-1/2). -/
def invDeg (x : FVec Ideal SX .f32) (b : Fin 16) (i : Fin 2048) : EReal :=
  Ideal.rsqrt (∑ k : Fin 2048, x (ix3 b i k))

/-- The vector of all of them, as an array of shape [16, 2048]. -/
def invDegVec (x : FVec Ideal SX .f32) : FVec Ideal SR .f32 := fun j => invDeg x (j 0) (j 1)

/-- Entry (b, i, j) of the result: the entry scaled by its row's factor, then by its column's. -/
def normAdj (x : FVec Ideal SX .f32) : FVec Ideal SX .f32 :=
  fun j => (x j * invDeg x (j 0) (j 1)) * invDeg x (j 0) (j 2)

end Cert.AdjNorm

end
-- ==== Proof.Payload.lean ====
/-
  The two kernels' stored values read element by element, on the extended reals.
  The degree kernel stores, for row (b, i) of its block, the inverse square root of the sum of the row's 2048 entries.
  The scaling kernel stores, at (b, i, j), the entry times its row's factor, and that product times its column's factor.
-/
import proofs.«104962_j35759897706670_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.ValueIdx

/-! ## The degree kernel -/

/-- Row (b, i) of the degree kernel's stored block: x ↦ x^(-1/2) of the sum over k of the loaded block at (b, i, k). -/
theorem pay0_apply (v0 : Vec Ideal S16x128x2048 .f32) (b : Fin 16) (i : Fin 128) :
    k0_pay1 (F := Ideal) v0 (ix2 b i) = Ideal.rsqrt (∑ k : Fin 2048, v0 (ix3 b i k)) := by
  unfold k0_pay1
  refine congrArg Ideal.rsqrt ?_
  refine (Ideal.multiReduction_add_single v0 0x00000000#32 Facts₀.reduces_S16x128x2048_S16x128 (.inl rfl) rfl (ix2 b i)).trans ?_
  refine Finset.sum_congr rfl fun k _ => congrArg v0 ?_
  funext a
  apply Fin.ext
  match a with
  | ⟨0, _⟩ => rfl
  | ⟨1, _⟩ => rfl
  | ⟨2, _⟩ => rfl

/-! ## A unit axis added after or between two axes, and a broadcast along it -/

section UnitAxis
variable {α : Type}

/-- An `[a, b]` array cast to `[a, b, 1]` reads, at `(p, q, u)`, the operand at `(p, q)`: both sit at row-major
    position `p · b + q`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, c]` array cast to `[a, 1, c]` reads, at `(p, u, r)`, the operand at `(p, r)`: both sit at row-major
    position `p · c + r`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An `[a, b, 1]` array broadcast to `[a, b, c]` reads, at `(p, q, r)`, the operand's one entry of row `(p, q)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array broadcast to `[a, b, c]` reads, at `(p, q, r)`, the operand's one row of matrix `p` at `r`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

end UnitAxis

/-! ## The scaling kernel -/

/-- Entry (b, i, j) of the scaling kernel's stored block: the loaded entry times the row factor at (b, i), and that
    product times the column factor at (b, j). -/
theorem pay1_apply (v3 : Vec Ideal S16x64 .f32) (v5 : Vec Ideal S16x2048 .f32) (v7 : Vec Ideal S16x64x2048 .f32)
    (b : Fin 16) (i : Fin 64) (j : Fin 2048) :
    k1_pay1 (F := Ideal) v3 v5 v7 (ix3 b i j) = (v7 (ix3 b i j) * v3 (ix2 b i)) * v5 (ix2 b j) := by
  unfold k1_pay1
  refine congrArg₂ (· * ·) (congrArg₂ (· * ·) rfl ?_) ?_
  · exact (broadcastTo_ab1_abc_apply _ _ b i j).trans
      ((shapeCast_ab_ab1_apply _ _ b i 0).trans (congrFun (shapeCast_self v3 _) _))
  · exact (broadcastTo_a1c_abc_apply _ _ b i j).trans
      ((shapeCast_ac_a1c_apply _ _ b 0 j).trans (congrFun (shapeCast_self v5 _) _))

end Cert.KernelIdeal.Pay

end
-- ==== Proof.Value.lean ====
/-
  What the two regions leave in their output arrays, at the exact (extended-real) reading of the floats, as whole-array
  functions of what each region finds in its input arrays.
-/
import proofs.«104962_j35759897706670_1_alg».proof.Proof.Dats
import proofs.«104962_j35759897706670_1_alg».proof.Proof.Spec
import proofs.«104962_j35759897706670_1_alg».proof.Proof.Payload
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Regs

variable (V : (c : Dev nD) → (b : Ref sig .tc) → Buf (Elt Ideal) ((c : Thread nD τ).loc b))

/-! ## Offsets that are all zero -/

theorem zeros2 : (![0, 0] : Fin 2 → Nat) = fun _ => 0 :=
  funext fun a => match a with | ⟨0, _⟩ => rfl | ⟨1, _⟩ => rfl
theorem zeros3 : (![0, 0, 0] : Fin 3 → Nat) = fun _ => 0 :=
  funext fun a => match a with | ⟨0, _⟩ => rfl | ⟨1, _⟩ => rfl | ⟨2, _⟩ => rfl

/-! ## Region 0: the row factors -/

/-- The block indices of region 0 at point `t`: the input's block is (0, t, 0), the output's is (0, t). -/
theorem index0 : ∀ t : Fin cfg0.N, win0_0.index t (0 : Fin 3) = 0 ∧ win0_0.index t (1 : Fin 3) = t.val
    ∧ win0_0.index t (2 : Fin 3) = 0 ∧ win0_1.index t (0 : Fin 2) = 0 ∧ win0_1.index t (1 : Fin 2) = t.val :=
  (by decide +kernel : ∀ t : Fin grid0.N, _)

/-- Entry (b, i, k) of the input's block at point `t` is entry (b, 128·t + i, k) of the input array. -/
theorem inBlock0_apply (c : Dev nD) (t : Fin cfg0.N) (b : Fin 16) (i : Fin 128) (k : Fin 2048) (r : Fin 2048)
    (hr : r.val = 128 * t.val + i.val) :
    (blk0 (F := Ideal) V c 0 t : Vec Ideal S16x128x2048 .f32) (ix3 b i k)
      = (V c main_arg0 : FVec Ideal Cert.AdjNorm.SX .f32) (ix3 b r k) := by
  obtain ⟨e0, e1, e2, -, -⟩ := index0 t
  unfold blk0
  rw [View.read_apply]
  show V c main_arg0 _ = V c main_arg0 _
  congr 1
  funext a
  apply Fin.ext
  match a with
  | ⟨0, _⟩ => show win0_0.index t 0 * 16 + 1 * b.val = b.val; rw [e0]; omega
  | ⟨1, _⟩ => show win0_0.index t 1 * 128 + 1 * i.val = r.val; rw [e1, hr]; omega
  | ⟨2, _⟩ => show win0_0.index t 2 * 2048 + 1 * k.val = k.val; rw [e2]; omega

/-- Place (b, i) of the output's block at point `t` is place (b, 128·t + i) of the vector of row factors. -/
theorem outBlock0_emb (t : Fin cfg0.N) (b : Fin 16) (i : Fin 128) (r : Fin 2048) (hr : r.val = 128 * t.val + i.val) :
    ((cfg0.win 1).blk t).view.emb (ix2 b i) = (ix2 b r : Cert.AdjNorm.SR.Idx) := by
  obtain ⟨-, -, -, e3, e4⟩ := index0 t
  funext a
  apply Fin.ext
  match a with
  | ⟨0, _⟩ => show win0_1.index t 0 * 16 + 1 * b.val = b.val; rw [e3]; omega
  | ⟨1, _⟩ => show win0_1.index t 1 * 128 + 1 * i.val = r.val; rw [e4, hr]; omega

/-- What point `t` of region 0 writes back is its block of the vector of row factors of the input array. -/
theorem flushed0_eq (c : Dev nD) (t : Fin cfg0.N) :
    (dat0 (F := Ideal) V c).flushed 1 t
      = ((cfg0.win 1).blk t).view.read (Elt Ideal) (Cert.AdjNorm.invDegVec (V c main_arg0) : FVec Ideal Cert.AdjNorm.SR .f32) := by
  show (cfg0.win 1).cut (grid0.coords t) ((dat0 V c).after 1 t) = _
  rw [after0_1]
  unfold out0
  rw [View.canon_unit_zero zeros2]
  simp only [View.ld_unit_zero (S := S16x128x2048) zeros3]
  show (k0_pay1 (F := Ideal) (blk0 V c 0 t) : S16x128.Idx → EReal)
    = fun j : S16x128.Idx => Cert.AdjNorm.invDegVec (V c main_arg0) (((cfg0.win 1).blk t).view.emb j)
  funext j
  obtain ⟨b, i, rfl⟩ : ∃ (b : Fin 16) (i : Fin 128), j = ix2 b i := ⟨j 0, j 1, eq_ix2 j⟩
  have hN : cfg0.N = 16 := N_0
  have ht : t.val < 16 := hN ▸ t.isLt
  rw [Pay.pay0_apply, outBlock0_emb t b i ⟨128 * t.val + i.val, by omega⟩ rfl]
  show _ = Ideal.rsqrt (∑ k : Fin 2048, (V c main_arg0 : FVec Ideal Cert.AdjNorm.SX .f32) (ix3 b ⟨128 * t.val + i.val, _⟩ k))
  exact congrArg Ideal.rsqrt (Finset.sum_congr rfl fun k _ => inBlock0_apply V c t b i k _ rfl)

/-- A place of the vector of row factors lies in point `t`'s block iff each coordinate lies in the block's range. -/
theorem mem_outBlock0 (t : Fin cfg0.N) (i : S16x2048.Idx) :
    i ∈ ((cfg0.win 1).blk t).view.set ↔ ∀ a : Fin 2, win0_1.index t a * S16x128.size a ≤ (i a).val
      ∧ (i a).val < win0_1.index t a * S16x128.size a + S16x128.size a := by
  show i ∈ ((View.whole main_v0).slice (win0_1.rect t)).set ↔ _
  rw [View.set_slice_whole, Rect.mem_set_unit]
  exact Iff.rfl

/-- Every place (b, r) of the vector is written back: by the point r / 128. -/
theorem rowFactors_covered (i : S16x2048.Idx) : ∃ t : Fin cfg0.N, (cfg0.win 1).flush t = true ∧ i ∈ ((cfg0.win 1).blk t).view.set := by
  have hN : cfg0.N = 16 := N_0
  have h0 : (i 0).val < 16 := (i 0).isLt
  have h1 : (i 1).val < 2048 := (i 1).isLt
  let t : Fin cfg0.N := ⟨(i 1).val / 128, by omega⟩
  obtain ⟨-, -, -, e3, e4⟩ := index0 t
  have e4' : win0_1.index t 1 = (i 1).val / 128 := e4
  refine ⟨t, flush0_1 t, ?_⟩
  rw [mem_outBlock0]
  intro a
  match a with
  | ⟨0, _⟩ => show win0_1.index t 0 * 16 ≤ (i 0).val ∧ (i 0).val < win0_1.index t 0 * 16 + 16; rw [e3]; omega
  | ⟨1, _⟩ => show win0_1.index t 1 * 128 ≤ (i 1).val ∧ (i 1).val < win0_1.index t 1 * 128 + 128; rw [e4']; omega

/-- After region 0 the vector of row factors holds, at (b, i), the inverse square root of the sum of row (b, i) of the
    input array as the region found it. -/
theorem final0 (c : Dev nD) :
    (dat0 (F := Ideal) V c).arrAt 1 cfg0.N = (Cert.AdjNorm.invDegVec (V c main_arg0) : FVec Ideal Cert.AdjNorm.SR .f32) :=
  (dat0 (F := Ideal) V c).arrAt_eq_of_cover 1 _ (fun t _ => flushed0_eq V c t) rowFactors_covered

/-! ## Region 1: every entry scaled by its row's factor and its column's -/

/-- The block indices of region 1 at point `t`: the input's and the result's block is (0, t, 0), both whole-vector
    windows sit at block (0, 0), and the grid's one coordinate is `t` itself. -/
theorem index1 : ∀ t : Fin cfg1.N, win1_0.index t (0 : Fin 3) = 0 ∧ win1_0.index t (1 : Fin 3) = t.val
    ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (1 : Fin 3) = t.val ∧ win1_3.index t (2 : Fin 3) = 0
    ∧ (grid1.coords t 0).val = t.val :=
  (by decide +kernel : ∀ t : Fin grid1.N, _)

/-- Entry (b, i, j) of the input's block at point `t` is entry (b, 64·t + i, j) of the input array. -/
theorem inBlock1_apply (c : Dev nD) (t : Fin cfg1.N) (b : Fin 16) (i : Fin 64) (j : Fin 2048) (r : Fin 2048)
    (hr : r.val = 64 * t.val + i.val) :
    (blk1 (F := Ideal) V c 0 t : Vec Ideal S16x64x2048 .f32) (ix3 b i j)
      = (V c main_arg0 : FVec Ideal Cert.AdjNorm.SX .f32) (ix3 b r j) := by
  obtain ⟨e0, e1, e2, -⟩ := index1 t
  unfold blk1
  rw [View.read_apply]
  show V c main_arg0 _ = V c main_arg0 _
  congr 1
  funext a
  apply Fin.ext
  match a with
  | ⟨0, _⟩ => show win1_0.index t 0 * 16 + 1 * b.val = b.val; rw [e0]; omega
  | ⟨1, _⟩ => show win1_0.index t 1 * 64 + 1 * i.val = r.val; rw [e1, hr]; omega
  | ⟨2, _⟩ => show win1_0.index t 2 * 2048 + 1 * j.val = j.val; rw [e2]; omega

/-- The first whole-vector window's block is the vector of row factors itself, at every point. -/
theorem rowVec1_apply (c : Dev nD) (t : Fin cfg1.N) (b : Fin 16) (r : Fin 2048) :
    (blk1 (F := Ideal) V c 1 t : Vec Ideal S16x2048 .f32) (ix2 b r)
      = (V c main_v0 : FVec Ideal Cert.AdjNorm.SR .f32) (ix2 b r) := by
  obtain ⟨-, -, -, e3, e4, -⟩ := index1 t
  unfold blk1
  rw [View.read_apply]
  show V c main_v0 _ = V c main_v0 _
  congr 1
  funext a
  apply Fin.ext
  match a with
  | ⟨0, _⟩ => show win1_1.index t 0 * 16 + 1 * b.val = b.val; rw [e3]; omega
  | ⟨1, _⟩ => show win1_1.index t 1 * 2048 + 1 * r.val = r.val; rw [e4]; omega

/-- So is the second's. -/
theorem colVec1_apply (c : Dev nD) (t : Fin cfg1.N) (b : Fin 16) (r : Fin 2048) :
    (blk1 (F := Ideal) V c 2 t : Vec Ideal S16x2048 .f32) (ix2 b r)
      = (V c main_v0 : FVec Ideal Cert.AdjNorm.SR .f32) (ix2 b r) := by
  obtain ⟨-, -, -, -, -, e5, e6, -⟩ := index1 t
  unfold blk1
  rw [View.read_apply]
  show V c main_v0 _ = V c main_v0 _
  congr 1
  funext a
  apply Fin.ext
  match a with
  | ⟨0, _⟩ => show win1_2.index t 0 * 16 + 1 * b.val = b.val; rw [e5]; omega
  | ⟨1, _⟩ => show win1_2.index t 1 * 2048 + 1 * r.val = r.val; rw [e6]; omega

/-- The 64 row factors the body loads at point `t`: place (b, i) of the load is place (b, 64·t + i) of the whole
    vector it loads from. -/
theorem rowSlice1_apply (x1 : Vec Ideal S16x2048 .f32) (t : Fin cfg1.N) (b : Fin 16) (i : Fin 64) (r : Fin 2048)
    (hr : r.val = 64 * t.val + i.val) :
    (View.ld x1 (rRow1 (grid1.coords t)) : Vec Ideal S16x64 .f32) (ix2 b i) = x1 (ix2 b r) := by
  obtain ⟨-, -, -, -, -, -, -, -, -, -, eg⟩ := index1 t
  have hoff := Gen.k1_off1_eq (grid1.coords t)
  show x1 ((rRow1 (grid1.coords t)).idx (ix2 b i)) = x1 (ix2 b r)
  congr 1
  funext a
  apply Fin.ext
  match a with
  | ⟨0, _⟩ =>
    show k1_off1 (grid1.coords t) 0 + 1 * b.val = b.val
    rw [hoff]; show 0 + 1 * b.val = b.val; omega
  | ⟨1, _⟩ =>
    show k1_off1 (grid1.coords t) 1 + 1 * i.val = r.val
    rw [hoff]; show 64 * (grid1.coords t 0).val + 1 * i.val = r.val; rw [eg, hr]; omega

/-- Place (b, i, j) of the result's block at point `t` is place (b, 64·t + i, j) of the result array. -/
theorem outBlock1_emb (t : Fin cfg1.N) (b : Fin 16) (i : Fin 64) (j : Fin 2048) (r : Fin 2048)
    (hr : r.val = 64 * t.val + i.val) :
    ((cfg1.win 3).blk t).view.emb (ix3 b i j) = (ix3 b r j : Cert.AdjNorm.SX.Idx) := by
  obtain ⟨-, -, -, -, -, -, -, e7, e8, e9, -⟩ := index1 t
  funext a
  apply Fin.ext
  match a with
  | ⟨0, _⟩ => show win1_3.index t 0 * 16 + 1 * b.val = b.val; rw [e7]; omega
  | ⟨1, _⟩ => show win1_3.index t 1 * 64 + 1 * i.val = r.val; rw [e8, hr]; omega
  | ⟨2, _⟩ => show win1_3.index t 2 * 2048 + 1 * j.val = j.val; rw [e9]; omega

/-- What point `t` of region 1 writes back is its block of the normalised adjacency of `x`. -/
theorem flushed1_eq (c : Dev nD) (x : FVec Ideal Cert.AdjNorm.SX .f32) (hx : V c main_arg0 = x)
    (hr : V c main_v0 = Cert.AdjNorm.invDegVec x) (t : Fin cfg1.N) :
    (dat1 (F := Ideal) V c).flushed 3 t
      = ((cfg1.win 3).blk t).view.read (Elt Ideal) (Cert.AdjNorm.normAdj x : FVec Ideal Cert.AdjNorm.SX .f32) := by
  show (cfg1.win 3).cut (grid1.coords t) ((dat1 V c).after 3 t) = _
  rw [after1_3]
  unfold out1
  rw [View.canon_unit_zero zeros3]
  simp only [View.ld_unit_zero (S := S16x64x2048) zeros3, View.ld_unit_zero (S := S16x2048) zeros2]
  show (k1_pay1 (F := Ideal) (View.ld (blk1 V c 1 t) (rRow1 (grid1.coords t))) (blk1 V c 2 t) (blk1 V c 0 t)
      : S16x64x2048.Idx → EReal)
    = fun y : S16x64x2048.Idx => Cert.AdjNorm.normAdj x (((cfg1.win 3).blk t).view.emb y)
  funext y
  obtain ⟨b, i, j, rfl⟩ : ∃ (b : Fin 16) (i : Fin 64) (j : Fin 2048), y = ix3 b i j := ⟨y 0, y 1, y 2, eq_ix3 y⟩
  have hN : cfg1.N = 32 := N_1
  have ht : t.val < 32 := hN ▸ t.isLt
  rw [Pay.pay1_apply, outBlock1_emb t b i j ⟨64 * t.val + i.val, by omega⟩ rfl,
    rowSlice1_apply _ t b i ⟨64 * t.val + i.val, by omega⟩ rfl,
    inBlock1_apply V c t b i j ⟨64 * t.val + i.val, by omega⟩ rfl, rowVec1_apply, colVec1_apply, hx, hr]
  rfl

/-- An index of the result array lies in point `t`'s block iff each coordinate lies in the block's range. -/
theorem mem_outBlock1 (t : Fin cfg1.N) (i : S16x2048x2048.Idx) :
    i ∈ ((cfg1.win 3).blk t).view.set ↔ ∀ a : Fin 3, win1_3.index t a * S16x64x2048.size a ≤ (i a).val
      ∧ (i a).val < win1_3.index t a * S16x64x2048.size a + S16x64x2048.size a := by
  show i ∈ ((View.whole main_v1).slice (win1_3.rect t)).set ↔ _
  rw [View.set_slice_whole, Rect.mem_set_unit]
  exact Iff.rfl

/-- Every entry (b, r, j) of the result array is written back: by the point r / 64. -/
theorem result_covered (i : S16x2048x2048.Idx) :
    ∃ t : Fin cfg1.N, (cfg1.win 3).flush t = true ∧ i ∈ ((cfg1.win 3).blk t).view.set := by
  have hN : cfg1.N = 32 := N_1
  have h0 : (i 0).val < 16 := (i 0).isLt
  have h1 : (i 1).val < 2048 := (i 1).isLt
  have h2 : (i 2).val < 2048 := (i 2).isLt
  let t : Fin cfg1.N := ⟨(i 1).val / 64, by omega⟩
  obtain ⟨-, -, -, -, -, -, -, e7, e8, e9, -⟩ := index1 t
  have e8' : win1_3.index t 1 = (i 1).val / 64 := e8
  refine ⟨t, flush1_3 t, ?_⟩
  rw [mem_outBlock1]
  intro a
  match a with
  | ⟨0, _⟩ => show win1_3.index t 0 * 16 ≤ (i 0).val ∧ (i 0).val < win1_3.index t 0 * 16 + 16; rw [e7]; omega
  | ⟨1, _⟩ => show win1_3.index t 1 * 64 ≤ (i 1).val ∧ (i 1).val < win1_3.index t 1 * 64 + 64; rw [e8']; omega
  | ⟨2, _⟩ => show win1_3.index t 2 * 2048 ≤ (i 2).val ∧ (i 2).val < win1_3.index t 2 * 2048 + 2048; rw [e9]; omega

/-- After region 1 the result array holds the normalised adjacency of `x`, provided the region found `x` in the input
    array and the row factors of `x` in the vector both of its whole-vector windows read. -/
theorem final1 (c : Dev nD) (x : FVec Ideal Cert.AdjNorm.SX .f32) (hx : V c main_arg0 = x)
    (hr : V c main_v0 = Cert.AdjNorm.invDegVec x) :
    (dat1 (F := Ideal) V c).arrAt 3 cfg1.N = (Cert.AdjNorm.normAdj x : FVec Ideal Cert.AdjNorm.SX .f32) :=
  (dat1 (F := Ideal) V c).arrAt_eq_of_cover 3 _ (fun t _ => flushed1_eq V c x hx hr t) result_covered

end Cert.KernelIdeal.Val

end
-- ==== Proof.KernelValue.lean ====
/-
  The idealized kernel's result, as one function of its argument: region 0 leaves the row factors of the argument in the
  vector, region 1 finds the argument untouched and that vector in both of its whole-vector windows, so what it leaves in
  the result array is the normalised adjacency of the argument.
-/
import proofs.«104962_j35759897706670_1_alg».proof.Proof.Run
import proofs.«104962_j35759897706670_1_alg».proof.Proof.Value

noncomputable section

namespace Cert.KernelIdeal.Val

open Idealize.ShloMosaic Idealize.ShloMosaic.TcCoe
open Idealize.SL.Sem
open Cert.KernelIdeal Cert.KernelIdeal.Gen Cert.KernelIdeal.Regs

variable (m : (ℓ : Loc nD τ sig) → Buf (Elt Ideal) ℓ)

/-- Region 1 finds the argument array as launched. -/
theorem entry1_arg (c : Dev nD) : U1 m c main_arg0 = m ((c : Thread nD τ).loc main_arg0) :=
  U1_of_ne m c main_arg0 (by decide)

/-- Region 1 finds the row factors of the argument in the vector. -/
theorem entry1_vec (c : Dev nD) :
    U1 m c main_v0 = Cert.AdjNorm.invDegVec (m ((c : Thread nD τ).loc main_arg0)) :=
  (U1_v0 m c).trans (final0 (U0 m) c)

/-- The result array after the run is the normalised adjacency of the argument. -/
theorem result_eq (c : Dev nD) :
    U2 m c main_v1 = Cert.AdjNorm.normAdj (m ((c : Thread nD τ).loc main_arg0)) :=
  (U2_v1 m c).trans (final1 (U1 m) c _ (entry1_arg m c) (entry1_vec m c))

end Cert.KernelIdeal.Val

end
-- ==== Proof.RefValue.lean ====
/-
  The reference program's result, as a function of the argument array, is the normalised adjacency of the
  specification, index by index on the extended reals. The program sums each row (starting from the zero
  word, which is the real number 0), takes x ↦ x^(-1/2) of each sum, copies that vector once along the
  columns and once along the rows, and multiplies the argument by the first copy, then by the second.
  Read at the index (b, i, j) this is (x[b,i,j] · d[b,i]^(-1/2)) · d[b,j]^(-1/2) with d[b,i] = Σ_k x[b,i,k].
-/
import proofs.«104962_j35759897706670_1_alg».proof.Proof.Gen.ReferenceIdeal.Read
import proofs.«104962_j35759897706670_1_alg».proof.Proof.Spec
import Idealize.ShloMosaic.Lib.ValueIdx
import Idealize.ShloMosaic.PureOps.Ideal
import Idealize.ShloMosaic.PureOps.Ideal.Laws

noncomputable section

namespace Cert.AdjNorm.Ref

open Idealize.ShloMosaic Idealize.ShloMosaic.ValueIdx
open Cert.ReferenceIdeal Cert.ReferenceIdeal.Gen Cert.ReferenceIdeal.Read

/-- The entries the row sum at (b, i) runs over are the entries (b, i, k) of the argument. -/
theorem idx_rowSum (b : Fin 16) (i : Fin 2048) (k : Fin 2048) :
    idx_main_v0 (ix2 b i) k = ix3 b i k :=
  funext fun a => by match a with | ⟨0, _⟩ => rfl | ⟨1, _⟩ => rfl | ⟨2, _⟩ => rfl

/-- The copy along the columns reads the vector at the row: (b, i, j) ↦ (b, i, 0) ↦ (b, i). -/
theorem idx_rowCopy (b : Fin 16) (i : Fin 2048) (j : Fin 2048) :
    idx_main_v2 (idx_main_v3 (ix3 b i j)) = ix2 b i :=
  funext fun a => by match a with | ⟨0, _⟩ => rfl | ⟨1, _⟩ => rfl

/-- The copy along the rows reads the vector at the column: (b, i, j) ↦ (b, 0, j) ↦ (b, j). -/
theorem idx_colCopy (b : Fin 16) (i : Fin 2048) (j : Fin 2048) :
    idx_main_v5 (idx_main_v6 (ix3 b i j)) = ix2 b j :=
  funext fun a => by match a with | ⟨0, _⟩ => rfl | ⟨1, _⟩ => rfl

/-- The reduce stage at (b, i) is the sum of row (b, i): the initial value is the real number 0. -/
theorem rowSum_apply (x : FVec Ideal SX .f32) (b : Fin 16) (i : Fin 2048) :
    val_main_v0 (F := Ideal) x (ix2 b i) = ∑ k : Fin 2048, x (ix3 b i k) := by
  rw [val_main_v0_apply, val_main_cst_apply]
  simp only [idx_rowSum]
  show Ideal.ofBits .f32 0x00000000#32 + _ = _
  rw [Ideal.ofBits_zero_f32, zero_add]

/-- The inverse-square-root stage at (b, i) is the specification's factor of row (b, i). -/
theorem invDeg_apply (x : FVec Ideal SX .f32) (b : Fin 16) (i : Fin 2048) :
    val_main_v1 (F := Ideal) x (ix2 b i) = invDeg x b i := by
  rw [val_main_v1_apply, rowSum_apply, Ideal.hostUnary_rsqrt_def]
  rfl

/-- The reference program's result stage is the specification: at every index (b, i, j) it is
    (x[b,i,j] · d[b,i]^(-1/2)) · d[b,j]^(-1/2), where d[b,i] = Σ_k x[b,i,k] is the degree of row (b, i). -/
theorem ref_eq (x : FVec Ideal Cert.AdjNorm.SX .f32) :
    Cert.ReferenceIdeal.Read.val_main_v7 (F := Ideal) x = Cert.AdjNorm.normAdj x := by
  funext j
  obtain ⟨b, i, k, rfl⟩ : ∃ (b : Fin 16) (i : Fin 2048) (k : Fin 2048), j = ix3 b i k :=
    ⟨j 0, j 1, j 2, eq_ix3 j⟩
  rw [val_main_v7_apply, val_main_v4_apply, val_main_v3_apply, val_main_v2_apply,
    val_main_v6_apply, val_main_v5_apply, idx_rowCopy, idx_colCopy, invDeg_apply, invDeg_apply,
    Ideal.mulf_def, Ideal.mulf_def]
  rfl

end Cert.AdjNorm.Ref

end
-- ==== Proof.lean ====
/-
  The normalised adjacency D^(-1/2) A D^(-1/2) of a batch of dense matrices, as a two-pass pipelined kernel against its
  jnp reference: over the extended reals both compute, entry by entry, x[b,i,j] · d[b,i]^(-1/2) · d[b,j]^(-1/2) with
  d[b,i] the sum of row i of matrix b, the two products taken in the same order.

  The kernel's first pass sums each row block by block and stores the inverse square roots; its second pass reads that
  vector through two windows (rows' factors, columns' factors) and scales each block of the matrices.  The run of the two
  passes (Proof/Run.lean, and its word-level twin Proof/RunB.lean) gives the three frame claims and names the result
  array; Proof/Value.lean and Proof/KernelValue.lean read that array as the specification `Cert.AdjNorm.normAdj` of the
  argument; Proof/RefValue.lean reads the reference's result as the same function.  The idealization rewrote nothing, so
  `preserves` is trivial.
-/
import proofs.«104962_j35759897706670_1_alg».proof.Defs
import proofs.«104962_j35759897706670_1_alg».proof.Proof.Gen.Kernel
import proofs.«104962_j35759897706670_1_alg».proof.Proof.Gen.KernelIdeal
import proofs.«104962_j35759897706670_1_alg».proof.Proof.Gen.ReferenceIdeal
import proofs.«104962_j35759897706670_1_alg».proof.Proof.Gen.Pre_finite_inputs
import proofs.«104962_j35759897706670_1_alg».proof.Proof.Gen.ReferenceIdeal.Run
import proofs.«104962_j35759897706670_1_alg».proof.Proof.Gen.ReferenceIdeal.Read
import proofs.«104962_j35759897706670_1_alg».proof.Proof.RunB
import proofs.«104962_j35759897706670_1_alg».proof.Proof.KernelValue
import proofs.«104962_j35759897706670_1_alg».proof.Proof.RefValue
import Idealize.ShloMosaic.Adequacy
import Idealize.ShloMosaic.Init

noncomputable section

namespace Cert.Proof

open Idealize.ShloMosaic Idealize.ShloMosaic.TcCoe Idealize.SL.Sem

/-- The program as printed runs to the end, faults nowhere, and leaves its argument as launched. -/
theorem frame_k : Cert.frame_Kernel := fun m ρ _ =>
  (θ_run Cert.Kernel.defs _ _).mono (fun _ h c => (h c).2) (Cert.Kernel.Regs.run (F := Bits) m ρ)

/-- So does its idealization. -/
theorem frame_ki : Cert.frame_KernelIdeal := fun m ρ _ =>
  (θ_run Cert.KernelIdeal.defs _ _).mono (fun _ h c => (h c).2) (Cert.KernelIdeal.Regs.run (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the normalised adjacency of the (shared) argument in their result arrays. -/
theorem algebraic : Cert.algebraic_KernelIdeal_ReferenceIdeal := by
  intro m ρ m' ρ' _ hagree
  refine ⟨fun c => Cert.AdjNorm.normAdj (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Val.result_eq m c), (h c).2⟩)
      (Cert.KernelIdeal.Regs.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, hagree c]
    exact Cert.AdjNorm.Ref.ref_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
